-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel

variable [Facts]

def fn {F : FTy → Type} [FloatOps F] (main_arg0 : FVec F S4x2048x4096 .f32) (main_arg1 : IVec S4096x4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  main_v3
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S512x4096 : Shape := ⟨2, ![512, 4096]⟩
abbrev S256x4096 : Shape := ⟨2, ![256, 4096]⟩
abbrev S512x256 : Shape := ⟨2, ![512, 256]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S8192x4096, .f32⟩
  | .hbm, ⟨3, _⟩ => ⟨S8192x4096, .f32⟩
  | .hbm, ⟨4, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S512x256, .f32⟩
  | .local _ .vmem, ⟨5, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S512x256_S512x256_0_0 : ∀ a, (![0, 0] : Fin 2 → Nat) a + S512x256.size a ≤ S512x256.size a
  h_S512x256 : 0 < S512x256.numel
  shapeCasts_S8192x4096_S4x2048x4096 : S8192x4096.ShapeCasts S4x2048x4096
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x4096.size a
  hwx0_2 : ∀ i : grid0.Coords, EltTy.bits .f32 = 32 ∨ (Rect.block (s := S8192x4096) S512x256.size (cc0_transform_2 i) (hinb0_2 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x4096, .f32⟩
  | .hbm, ⟨3, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.BlockDot.lean ====
/-
  One grid point's product, entry by entry.

  The body multiplies a block of 512 activation rows by a block of 256 weight rows, contracting the 4096 input
  features of both (the weight block enters untransposed: rows times rows), into a zero accumulator. On the extended
  reals the two roundings to bf16 are the identity and an integer weight is read exactly, so entry (p, q) of the
  block is Σ_k xb[p, k] · wb[q, k].
-/
import proofs.«125724_j43963285242662_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.BlockDot

open Cert.KernelIdeal Cert.KernelIdeal.Gen Idealize.ShloMosaic Idealize.ShloMosaic.ValueIdx

/-- The left operand's row is the output's row. -/
theorem lhs_row (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
/-- The left operand's column is the contracted feature. -/
theorem lhs_col (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
/-- The right operand's row is the output's column: the weights enter as rows of output features. -/
theorem rhs_row (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
/-- The right operand's column is the contracted feature. -/
theorem rhs_col (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- Entry (p, q) of a point's product is Σ_k xb[p, k] · wb[q, k]. -/
theorem pay_apply (xb : Vec Ideal S512x4096 .f32) (wb : Vec Ideal S256x4096 .i32) (p : Fin 512) (q : Fin 256) :
    k0_pay1 (F := Ideal) xb wb (ix2 p q)
      = ∑ k : Fin 4096, xb (ix2 p k) * FloatOps.sitofp (F := Ideal) .f32 (wb (ix2 q k)) := by
  unfold k0_pay1
  simp only [matmul]
  rw [Ideal.matmul_constant_zero_apply, ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p q) ((contrEquiv1 dot_S512x4096_S256x4096_S512x256_1_1_0_0_n_n 4096 rfl rfl).symm k) = ix2 p k := funext fun a => Fin.ext (by
    match a with
    | ⟨0, _⟩ => exact lhs_row _ _
    | ⟨1, _⟩ => exact (lhs_col _ _).trans hk)
  have er : dot_S512x4096_S256x4096_S512x256_1_1_0_0_n_n.rhsIdx (ix2 p q) ((contrEquiv1 dot_S512x4096_S256x4096_S512x256_1_1_0_0_n_n 4096 rfl rfl).symm k) = ix2 q k := funext fun a => Fin.ext (by
    match a with
    | ⟨0, _⟩ => exact rhs_row _ _
    | ⟨1, _⟩ => exact (rhs_col _ _).trans hk)
  rw [el, er, shapeCast_self]
  rfl

end Cert.KernelIdeal.BlockDot

end
-- ==== Proof.Linear.lean ====
/-
  The function both programs compute, and the one law that joins their two arrangements.

  The linear layer over integer weights: entry (b, s, o) of the result is Σ_k x[b, s, k] · w[o, k], each weight
  read as the integer it is (exactly, on the extended reals). One side computes it on the activations flattened to
  8192 rows (row r = 2048·b + s), as the rows-by-rows product `rowsDot`, and regroups the rows afterwards; the other
  contracts the rank-3 array directly. Flattening and regrouping are row-major re-readings of the same entries, so
  the two are the same sum term by term: no algebra on the extended reals is needed beyond reading indices.
-/
import Idealize.ShloMosaic.PureOps.Ideal
import Idealize.ShloMosaic.Lib.ValueIdx
import Idealize.ShloMosaic.Lib.Pipeline.Value

noncomputable section

namespace Cert.Linear

open Idealize.ShloMosaic Idealize.ShloMosaic.ValueIdx

/-- Activations [4, 2048, 4096]. -/
abbrev SX : Shape := ⟨3, ![4, 2048, 4096]⟩
/-- Activations flattened to rows [8192, 4096]. -/
abbrev SX2 : Shape := ⟨2, ![8192, 4096]⟩
/-- Weights [4096 outputs, 4096 inputs]. -/
abbrev SW : Shape := ⟨2, ![4096, 4096]⟩

/-- Rows times rows: entry (r, o) is Σ_k x2[r, k] · w[o, k]. -/
def rowsDot (x2 : Vec Ideal SX2 .f32) (w : Vec Ideal SW .i32) : Vec Ideal SX2 .f32 :=
  fun j => ∑ k : Fin 4096, x2 (ix2 (j 0) k) * FloatOps.sitofp (F := Ideal) .f32 (w (ix2 (j 1) k))

/-- The linear layer: entry (b, s, o) is Σ_k x[b, s, k] · w[o, k]. -/
def linear (x : Vec Ideal SX .f32) (w : Vec Ideal SW .i32) : Vec Ideal SX .f32 :=
  fun i => ∑ k : Fin 4096, x (ix3 (i 0) (i 1) k) * FloatOps.sitofp (F := Ideal) .f32 (w (ix2 (i 2) k))

/-- The flattened activations at row r = 2048·b + s, column k, are x[b, s, k]: both sit at row-major position
    (2048·b + s)·4096 + k. -/
theorem flatten_apply {α : Type} (x : SX.Idx → α) (h : SX.ShapeCasts SX2) (b : Fin 4) (s : Fin 2048) (k : Fin 4096)
    (r : Fin 8192) (hr : r.val = b.val * 2048 + s.val) :
    shapeCast SX2 x h (ix2 r k) = x (ix3 b s k) :=
  shapeCast_apply x h _ _ (by
    rw [Shape.rowMajor_val_three, Shape.rowMajor_val_two]
    show (b.val * 2048 + s.val) * 4096 + k.val = r.val * 4096 + k.val
    rw [hr])

/-- A rows array regrouped to [4, 2048, 4096], at (b, s, o), is its row 2048·b + s at column o. -/
theorem unflatten_apply {α : Type} (y : SX2.Idx → α) (h : SX2.ShapeCasts SX) (i : SX.Idx)
    (r : Fin 8192) (hr : r.val = (i 0).val * 2048 + (i 1).val) :
    shapeCast SX y h i = y (ix2 r (i 2)) :=
  shapeCast_apply y h _ _ (by
    rw [Shape.rowMajor_val_three, Shape.rowMajor_val_two]
    show r.val * 4096 + (i 2).val = ((i 0).val * 2048 + (i 1).val) * 4096 + (i 2).val
    rw [hr])

/-- THE LAW: the rows-by-rows product of the flattened activations, regrouped, is the linear layer — entry (b, s, o)
    of the left side is row 2048·b + s of the product at column o, whose k-th term reads the flattened array at
    (2048·b + s, k), which is x[b, s, k]. -/
theorem unflatten_rowsDot_flatten (x : Vec Ideal SX .f32) (w : Vec Ideal SW .i32) (h : SX.ShapeCasts SX2) (h' : SX2.ShapeCasts SX) :
    shapeCast SX (rowsDot (shapeCast SX2 x h) w) h' = linear x w := by
  funext i
  have h0 : (i 0).val < 4 := (i 0).isLt
  have h1 : (i 1).val < 2048 := (i 1).isLt
  have hr : (i 0).val * 2048 + (i 1).val < 8192 := by omega
  rw [unflatten_apply _ h' i ⟨_, hr⟩ rfl]
  unfold rowsDot linear
  refine Finset.sum_congr rfl fun k _ => ?_
  show shapeCast SX2 x h (ix2 ⟨(i 0).val * 2048 + (i 1).val, hr⟩ k) * _ = _
  rw [flatten_apply x h (i 0) (i 1) k ⟨_, hr⟩ rfl]

end Cert.Linear

end
-- ==== Proof.KernelValue.lean ====
/-
  What the kernel program leaves in its result, as a function of its arguments.

  The program flattens the activations to 8192 rows, runs a 16 × 16 grid — point (i, j) multiplies activation rows
  512·i … 512·i + 511 by weight rows 256·j … 256·j + 255 and writes the 512 × 256 block (i, j) of the rows-by-rows
  product — and regroups the rows to [4, 2048, 4096]. The blocks tile the product, so after the grid the product's
  array holds `rowsDot` of the flattened activations and the weights, and the regrouped result is the linear layer.
-/
import proofs.«125724_j43963285242662_1_alg».proof.Proof.Gen.KernelIdeal.Frame
import proofs.«125724_j43963285242662_1_alg».proof.Proof.BlockDot
import proofs.«125724_j43963285242662_1_alg».proof.Proof.Linear
import Idealize.ShloMosaic.Lib.Pipeline.Value
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays as the grid finds them -/

/-- The grid finds the activations flattened to rows. -/
theorem entry_rows (c : Dev nD) :
    (V m c main_v0 : S8192x4096.Idx → EReal)
      = shapeCast S8192x4096 (m ((c : Thread nD τ).loc main_arg0)) shapeCasts_S4x2048x4096_S8192x4096 := by
  show StableHlo.after hostOps0 (fun b => m (c, b)) (Proc.devRef .tc main_v0) = _
  after_results
  rfl

/-- The flattened activations and the weights as the grid finds them, at their literal types. -/
abbrev rows (c : Dev nD) : Vec Ideal S8192x4096 .f32 := V m c main_v0
abbrev wts (c : Dev nD) : Vec Ideal S4096x4096 .i32 := V m c main_arg1

theorem rows_eq (c : Dev nD) :
    rows m c = shapeCast S8192x4096 (m ((c : Thread nD τ).loc main_arg0)) shapeCasts_S4x2048x4096_S8192x4096 :=
  entry_rows m c
/-- No line before the grid writes the weights. -/
theorem wts_eq (c : Dev nD) : wts m c = m ((c : Thread nD τ).loc main_arg1) := V_main_arg1 m c

/-- The activation rows a point reads, and the weight rows it reads. -/
abbrev xblk (c : Dev nD) (t : Fin cfg0.N) : Vec Ideal S512x4096 .f32 := iblk m c 0 t
abbrev wblk (c : Dev nD) (t : Fin cfg0.N) : Vec Ideal S256x4096 .i32 := iblk m c 1 t

/-- Where the three windows' blocks sit at a grid point: the activation block's row index is the output block's, the
    weight block's row index is the output block's column index, both input blocks span all 4096 features, and the
    output's block indices run over 16 × 16. -/
theorem idx_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15
    ∧ win0_2.index t (1 : Fin 2) ≤ 15 :=
  (by decide +kernel : ∀ t : Fin grid0.N, _)

/-- Every block of the 16 × 16 tiling is some point's. -/
theorem idx_onto : ∀ (q0 : Fin 16) (q1 : Fin 16), ∃ t : Fin cfg0.N, win0_2.index t = ![q0.val, q1.val] :=
  (by decide +kernel : ∀ (q0 : Fin 16) (q1 : Fin 16), ∃ t : Fin grid0.N, win0_2.index t = ![q0.val, q1.val])

/-- Row p, feature k of a point's activation block is the flattened activations at the block's row offset plus p. -/
theorem xblk_apply (c : Dev nD) (t : Fin cfg0.N) (p : Fin 512) (k : Fin 4096) (i : S8192x4096.Idx)
    (h0 : (i 0).val = win0_0.index t (0 : Fin 2) * 512 + p.val) (h1 : (i 1).val = win0_0.index t (1 : Fin 2) * 4096 + k.val) :
    xblk m c t (ix2 p k) = rows m c i := by
  show V m c main_v0 (((cfg0.win 0).blk t).view.emb (ix2 p k)) = V m c main_v0 i
  refine congrArg _ (funext fun a => Fin.ext ?_)
  match a with
  | ⟨0, _⟩ => show win0_0.index t (0 : Fin 2) * 512 + 1 * p.val = (i 0).val; omega
  | ⟨1, _⟩ => show win0_0.index t (1 : Fin 2) * 4096 + 1 * k.val = (i 1).val; omega

/-- Row q, feature k of a point's weight block is the weights at the block's row offset plus q. -/
theorem wblk_apply (c : Dev nD) (t : Fin cfg0.N) (q : Fin 256) (k : Fin 4096) (i : S4096x4096.Idx)
    (h0 : (i 0).val = win0_1.index t (0 : Fin 2) * 256 + q.val) (h1 : (i 1).val = win0_1.index t (1 : Fin 2) * 4096 + k.val) :
    wblk m c t (ix2 q k) = wts m c i := by
  show V m c main_arg1 (((cfg0.win 1).blk t).view.emb (ix2 q k)) = V m c main_arg1 i
  refine congrArg _ (funext fun a => Fin.ext ?_)
  match a with
  | ⟨0, _⟩ => show win0_1.index t (0 : Fin 2) * 256 + 1 * q.val = (i 0).val; omega
  | ⟨1, _⟩ => show win0_1.index t (1 : Fin 2) * 4096 + 1 * k.val = (i 1).val; omega

/-- Entry (p, q) of a point's output block sits in the product's array at the block's offsets plus (p, q). -/
theorem oblk_emb (t : Fin cfg0.N) (p : Fin 512) (q : Fin 256) (r : Fin 8192) (o : Fin 4096)
    (hr : r.val = win0_2.index t (0 : Fin 2) * 512 + p.val) (ho : o.val = win0_2.index t (1 : Fin 2) * 256 + q.val) :
    ((cfg0.win 2).blk t).view.emb (ix2 p q) = (ix2 r o : S8192x4096.Idx) :=
  funext fun a => Fin.ext (by
    match a with
    | ⟨0, _⟩ => show win0_2.index t (0 : Fin 2) * 512 + 1 * p.val = r.val; omega
    | ⟨1, _⟩ => show win0_2.index t (1 : Fin 2) * 256 + 1 * q.val = o.val; omega)

/-! ## What a point writes back -/

theorem hz : (![0, 0] : Fin 2 → Nat) = fun _ => 0 := funext fun a => by fin_cases a <;> rfl

/-- A point's product, entry by entry, is the rows-by-rows product of the whole arrays read where the entry lands. -/
theorem block_eq (c : Dev nD) (t : Fin cfg0.N) (j : S512x256.Idx) :
    k0_pay1 (F := Ideal) (xblk m c t) (wblk m c t) j
      = Cert.Linear.rowsDot (rows m c) (wts m c) (((cfg0.win 2).blk t).view.emb j) := by
  obtain ⟨p, q, rfl⟩ : ∃ (p : Fin 512) (q : Fin 256), j = ix2 p q := ⟨j 0, j 1, eq_ix2 j⟩
  obtain ⟨e0, e1, e2, e3, e4, e5⟩ := idx_facts t
  have hp : p.val < 512 := p.isLt
  have hq : q.val < 256 := q.isLt
  have hr : win0_2.index t (0 : Fin 2) * 512 + p.val < 8192 := by omega
  have ho : win0_2.index t (1 : Fin 2) * 256 + q.val < 4096 := by omega
  rw [oblk_emb t p q ⟨_, hr⟩ ⟨_, ho⟩ rfl rfl, BlockDot.pay_apply]
  unfold Cert.Linear.rowsDot
  refine Finset.sum_congr rfl fun k _ => ?_
  show _ = rows m c (ix2 ⟨_, hr⟩ k) * FloatOps.sitofp (F := Ideal) .f32 (wts m c (ix2 ⟨_, ho⟩ k))
  rw [xblk_apply m c t p k (ix2 ⟨_, hr⟩ k) (by show win0_2.index t (0 : Fin 2) * 512 + p.val = _; omega) (by show k.val = _; omega),
    wblk_apply m c t q k (ix2 ⟨_, ho⟩ k) (by show win0_2.index t (1 : Fin 2) * 256 + q.val = _; omega) (by show k.val = _; omega)]

/-- WHAT POINT `t` WRITES BACK is block `t` of the rows-by-rows product of the arrays as the grid finds them. -/
theorem flushed_eq (c : Dev nD) (t : Fin cfg0.N) :
    (dats m 0 c).flushed 2 t
      = ((cfg0.win 2).blk t).view.read (Elt Ideal) (Cert.Linear.rowsDot (rows m c) (wts m c)) := by
  show (cfg0.win 2).cut (grid0.coords t) ((dats m 0 c).after 2 t) = _
  rw [after0_2]
  unfold out0_2
  rw [View.canon_unit_zero hz]
  simp only [View.ld_unit_zero (S := S512x4096) hz, View.ld_unit_zero (S := S256x4096) hz]
  funext j
  show k0_pay1 (F := Ideal) (xblk m c t) (wblk m c t) j
      = Cert.Linear.rowsDot (rows m c) (wts m c) (((cfg0.win 2).blk t).view.emb j)
  exact block_eq m c t j

/-! ## The blocks tile the product -/

/-- An index of the product is in point `t`'s block iff each coordinate is in the block's range on its axis. -/
theorem mem_blk (t : Fin cfg0.N) (i : S8192x4096.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v1).slice (win0_2.rect t)).set ↔ _
  rw [View.set_slice_whole, Rect.mem_set_unit]
  exact Iff.rfl

/-- Entry (r, o) of the product is written by the point whose block is (r / 512, o / 256). -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 512, by omega⟩ ⟨(i 1).val / 256, by omega⟩
  have q0 : win0_2.index t (0 : Fin 2) = (i 0).val / 512 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 256 ≤ (i 1).val ∧ (i 1).val < win0_2.index t (1 : Fin 2) * 256 + 256; omega

/-- THE PRODUCT'S ARRAY after the grid: the rows-by-rows product of the flattened activations and the weights. -/
theorem final (c : Dev nD) :
    (dats m 0 c).arrAt 2 cfg0.N = Cert.Linear.rowsDot (rows m c) (wts m c) :=
  (dats m 0 c).arrAt_eq_of_cover 2 _ (fun t _ => flushed_eq m c t) (fun i => cover i)

/-! ## The result, regrouped -/

/-- The program's result: the product's rows regrouped to [4, 2048, 4096] — the linear layer of the arguments. -/
theorem result_eq (c : Dev nD) :
    Pipeline.afterTail₀ cfgs (dats m) 0 (V0 m) [hostOps1] c main_v2
      = Cert.Linear.linear (m ((c : Thread nD τ).loc main_arg0)) (m ((c : Thread nD τ).loc main_arg1)) := by
  unfold Pipeline.afterTail₀
  show StableHlo.after hostOps1 _ (Proc.devRef .tc main_v2) = _
  after_results
  have hW : Pipeline.withArrays (cfgs 0).spec c (V0 m c) (fun w => (dats m 0 c).arrAt w (cfgs 0).N) (Proc.devRef .tc main_v1)
      = Cert.Linear.rowsDot (rows m c) (wts m c) :=
    (Pipeline.withArrays_arr spec0 launch0.win.arr_inj c _ _ 2).trans (final m c)
  rw [hW, rows_eq, wts_eq]
  exact Cert.Linear.unflatten_rowsDot_flatten _ _ _ _

/-! ## The run, read -/

/-- Every weakly fair execution of the kernel program ends with its result at the linear layer of its arguments and
    the arguments as launched: the generated frame run, its post read at the result and at the two arguments. -/
theorem run : θ_run defs (onTc (τ := τ) (main (F := Ideal))) ⟨m, fun _ => 0, ρ⟩ fun r => ∀ c : Dev nD,
      r.2.mem ((c.tc : Thread nD τ).loc main_v2)
        = Cert.Linear.linear (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.KernelValue

end
-- ==== Proof.RefSide.lean ====
/-
  The reference computes the linear layer.

  It converts the integer weights to floats (exactly, on the extended reals) and contracts the last axis of the
  activations with the last axis of the weights: entry (b, s, o) is Σ_k x[b, s, k] · w[o, k].
-/
import proofs.«125724_j43963285242662_1_alg».proof.Proof.Gen.ReferenceIdeal.Run
import proofs.«125724_j43963285242662_1_alg».proof.Proof.Gen.ReferenceIdeal.Read
import proofs.«125724_j43963285242662_1_alg».proof.Proof.Linear

noncomputable section

namespace Cert.ReferenceIdeal.RefValue

open Cert.ReferenceIdeal Cert.ReferenceIdeal.Read Idealize.ShloMosaic Idealize.ShloMosaic.ValueIdx

/-- The left operand is read at (b, s, k). -/
theorem lidx_eq (i : S4x2048x4096.Idx) (k : Fin 4096) : lidx_main_v1 i k = ix3 (i 0) (i 1) k :=
  funext fun a => Fin.ext (by match a with | ⟨0, _⟩ => rfl | ⟨1, _⟩ => rfl | ⟨2, _⟩ => rfl)
/-- The right operand is read at (o, k). -/
theorem ridx_eq (i : S4x2048x4096.Idx) (k : Fin 4096) : ridx_main_v1 i k = ix2 (i 2) k :=
  funext fun a => Fin.ext (by match a with | ⟨0, _⟩ => rfl | ⟨1, _⟩ => rfl)

/-- The reference's result is the linear layer of its arguments. -/
theorem result_eq (x : Vec Ideal S4x2048x4096 .f32) (w : Vec Ideal S4096x4096 .i32) :
    val_main_v1 (F := Ideal) x w = Cert.Linear.linear x w := by
  funext i
  rw [val_main_v1_apply]
  unfold Cert.Linear.linear
  refine Finset.sum_congr rfl fun k _ => ?_
  rw [val_main_v0_apply, lidx_eq, ridx_eq]
  rfl

end Cert.ReferenceIdeal.RefValue

end
-- ==== Proof.lean ====
/-
  A linear layer over integer weights, tiled on a 16 × 16 grid, against the contraction written once.

  Both programs compute result[b, s, o] = Σ_k x[b, s, k] · w[o, k] on the extended reals, each integer weight read
  exactly. The kernel program flattens the activations to 8192 rows, has grid point (i, j) multiply 512 activation
  rows by 256 weight rows (rounding both to bf16 first, which on the extended reals is the identity, and
  accumulating into zero) and write block (i, j) of the rows-by-rows product, then regroups the rows; the reference
  converts the weights and contracts the rank-3 array directly. The blocks tile the product, flattening and
  regrouping are row-major re-readings, and the two sums agree term by term: no law that needs finite inputs enters.

  Proof/Linear.lean states the function and the flatten / regroup law; Proof/BlockDot.lean reads one point's product
  at an entry; Proof/KernelValue.lean assembles the product's array from the blocks, regroups it, and restates the
  kernel program's run with its result named; Proof/RefSide.lean reads the reference's contraction as the same
  function. The kernel programs' frames are the generated ones, the reference's frame is its run with the result
  dropped, and the idealization rewrote nothing.
-/
import proofs.«125724_j43963285242662_1_alg».proof.Defs
import proofs.«125724_j43963285242662_1_alg».proof.Proof.Gen.Kernel
import proofs.«125724_j43963285242662_1_alg».proof.Proof.Gen.Kernel.Frame
import proofs.«125724_j43963285242662_1_alg».proof.Proof.Gen.KernelIdeal
import proofs.«125724_j43963285242662_1_alg».proof.Proof.Gen.KernelIdeal.Frame
import proofs.«125724_j43963285242662_1_alg».proof.Proof.Gen.ReferenceIdeal
import proofs.«125724_j43963285242662_1_alg».proof.Proof.Gen.ReferenceIdeal.Run
import proofs.«125724_j43963285242662_1_alg».proof.Proof.Gen.Pre_finite_inputs
import proofs.«125724_j43963285242662_1_alg».proof.Proof.KernelValue
import proofs.«125724_j43963285242662_1_alg».proof.Proof.RefSide
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the activations and the weights both programs end with the linear layer of them. -/
theorem algebraic : Cert.algebraic_KernelIdeal_ReferenceIdeal := by
  intro m ρ m' ρ' _ hagree
  refine ⟨fun c => Cert.Linear.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
